-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x50000 : Shape := ⟨2, ![16, 50000]⟩
abbrev S1600000 : Shape := ⟨1, ![1600000]⟩
abbrev S50000 : Shape := ⟨1, ![50000]⟩
abbrev S_ : Shape := ⟨0, ![]⟩

class Facts : Prop where
  bcast_S_S16x50000 : S_.BroadcastsInDim S16x50000 (![] : Fin 0 → Fin S16x50000.rank)
  reducesTo_S16x50000_S_d0_1 : S16x50000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S50000 .f32) (main_arg5 : FVec F S50000 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S50000 .f32 := Host.absf main_arg4
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  let main_v24 : FVec F S50000 .f32 := Host.absf main_arg5
  let main_cst_8 : FVec F S_ .f32 := constant S_ .f32 0x7F800000#32
  let main_v25 : FVec F S50000 .f32 := broadcastInDim S50000 ![] bcast_S_S50000 main_cst_8
  let main_v26 : IVec S50000 1 := cmpf .olt main_v24 main_v25
  let main_c_9 : IVec S_ 1 := constantI S_ 1 1#1
  let main_v27 : IVec S_ 1 := (fun x v => Host.reduce IntOp.andi x v reducesTo_S50000_S_d0 h_S_) main_v26 main_c_9
  let main_v28 : IVec S_ 1 := andi main_v23 main_v27
  main_v28

def fn {F : FTy → Type} [FloatOps F] (main_arg0 : FVec F S16x50000 .f32) (main_arg1 : FVec F S16x50000 .f32) (main_arg2 : FVec F S16x50000 .f32) (main_arg3 : FVec F S1600000 .f32) (main_arg4 : FVec F S50000 .f32) (main_arg5 : FVec F S50000 .f32) (main_arg6 : IVec S1600000 32) (main_arg7 : IVec S1600000 32) : IVec S_ 1 :=
  let main_v0 : FVec F S16x50000 .f32 := Host.absf main_arg0
  let main_cst : FVec F S_ .f32 := constant S_ .f32 0x7F800000#32
  let main_v1 : FVec F S16x50000 .f32 := broadcastInDim S16x50000 ![] bcast_S_S16x50000 main_cst
  let main_v2 : IVec S16x50000 1 := cmpf .olt main_v0 main_v1
  let main_c : IVec S_ 1 := constantI S_ 1 1#1
  let main_v3 : IVec S_ 1 := (fun x v => Host.reduce IntOp.andi x v reducesTo_S16x50000_S_d0_1 h_S_) main_v2 main_c
  let main_v4 : FVec F S16x50000 .f32 := Host.absf main_arg1
  let main_cst_0 : FVec F S_ .f32 := constant S_ .f32 0x7F800000#32
  let main_v5 : FVec F S16x50000 .f32 := broadcastInDim S16x50000 ![] bcast_S_S16x50000 main_cst_0
  let main_v6 : IVec S16x50000 1 := cmpf .olt main_v4 main_v5
  let main_c_1 : IVec S_ 1 := constantI S_ 1 1#1
  let main_v7 : IVec S_ 1 := (fun x v => Host.reduce IntOp.andi x v reducesTo_S16x50000_S_d0_1 h_S_) main_v6 main_c_1
  let main_v8 : IVec S_ 1 := andi main_v3 main_v7
  let main_v9 : FVec F S16x50000 .f32 := Host.absf main_arg2
  let main_cst_2 : FVec F S_ .f32 := constant S_ .f32 0x7F800000#32
  let main_v10 : FVec F S16x50000 .f32 := broadcastInDim S16x50000 ![] bcast_S_S16x50000 main_cst_2
  let main_v11 : IVec S16x50000 1 := cmpf .olt main_v9 main_v10
  let main_c_3 : IVec S_ 1 := constantI S_ 1 1#1
  let main_v12 : IVec S_ 1 := (fun x v => Host.reduce IntOp.andi x v reducesTo_S16x50000_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg5 main_v13 main_v16
-- ==== Kernel.lean ====
abbrev S16x50000 : Shape := ⟨2, ![16, 50000]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S16x1600000 : Shape := ⟨2, ![16, 1600000]⟩
abbrev S1x1600000 : Shape := ⟨2, ![1, 1600000]⟩
abbrev S16x80000 : Shape := ⟨2, ![16, 80000]⟩
abbrev S1x80000 : Shape := ⟨2, ![1, 80000]⟩
abbrev S1x50000 : Shape := ⟨2, ![1, 50000]⟩

abbrev nBuf : Space → Nat
  | .hbm => 43
  | .vmem => 15
  | .smem => 0
  | _ => 0

abbrev bufTy : (tb : Table) → Fin (tcTables nBuf tb) → BufTy
  | .hbm, ⟨0, _⟩ => ⟨S16x50000, .f32⟩
  | .hbm, ⟨1, _⟩ => ⟨S16x50000, .f32⟩
  | .hbm, ⟨2, _⟩ => ⟨S16x50000, .f32⟩
  | .hbm, ⟨3, _⟩ => ⟨S1600000, .f32⟩
  | .hbm, ⟨4, _⟩ => ⟨S50000, .f32⟩
  | .hbm, ⟨5, _⟩ => ⟨S50000, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S16x1600000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S16x1600000, .f32⟩
  | .hbm, ⟨26, _⟩ => ⟨S1x1600000, .f32⟩
  | .hbm, ⟨27, _⟩ => ⟨S16x1600000, .f32⟩
  | .hbm, ⟨28, _⟩ => ⟨S_, .f32⟩
  | .hbm, ⟨29, _⟩ => ⟨S16x50000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S16x50000, .f32⟩
  | .hbm, ⟨39, _⟩ => ⟨S1x50000, .f32⟩
  | .hbm, ⟨40, _⟩ => ⟨S1x50000, .f32⟩
  | .hbm, ⟨41, _⟩ => ⟨S16x50000, .f32⟩
  | .hbm, ⟨42, _⟩ => ⟨S16x50000, .f32⟩
  | .local _ .vmem, ⟨0, _⟩ => ⟨S16x80000, .f32⟩
  | .local _ .vmem, ⟨1, _⟩ => ⟨S16x80000, .f32⟩
  | .local _ .vmem, ⟨2, _⟩ => ⟨S16x80000, .f32⟩
  | .local _ .vmem, ⟨3, _⟩ => ⟨S16x80000, .f32⟩
  | .local _ .vmem, ⟨4, _⟩ => ⟨S1x80000, .f32⟩
  | .local _ .vmem, ⟨5, _⟩ => ⟨S1x80000, .f32⟩
  | .local _ .vmem, ⟨6, _⟩ => ⟨S16x80000, .f32⟩
  | .local _ .vmem, ⟨7, _⟩ => ⟨S16x80000, .f32⟩
  | .local _ .vmem, ⟨8, _⟩ => ⟨S16x50000, .f32⟩
  | .local _ .vmem, ⟨9, _⟩ => ⟨S16x50000, .f32⟩
  | .local _ .vmem, ⟨10, _⟩ => ⟨S16x50000, .f32⟩
  | .local _ .vmem, ⟨11, _⟩ => ⟨S1x50000, .f32⟩
  | .local _ .vmem, ⟨12, _⟩ => ⟨S1x50000, .f32⟩
  | .local _ .vmem, ⟨13, _⟩ => ⟨S16x50000, .f32⟩
  | .local _ .vmem, ⟨14, _⟩ => ⟨S16x50000, .f32⟩
  | _, _ => ⟨S16x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x50000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x50000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x50000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x50000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x50000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x50000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1x1600000 : S1600000.ShapeCasts S1x1600000
  inb_S16x80000_S16x80000_0_0 : ∀ a, (![0, 0] : Fin 2 → Nat) a + S16x80000.size a ≤ S16x80000.size a
  h_S16x80000 : 0 < S16x80000.numel
  shapeCasts_S16x80000_S16x80000 : S16x80000.ShapeCasts S16x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  broadcasts_S1x80000_S16x80000 : S1x80000.Broadcasts S16x80000
  bcast_S_S16x50000 : S_.BroadcastsInDim S16x50000 (![] : Fin 0 → Fin S16x50000.rank)
  shapeCasts_S50000_S1x50000 : S50000.ShapeCasts S1x50000
  inb_S16x50000_S16x50000_0_0 : ∀ a, (![0, 0] : Fin 2 → Nat) a + S16x50000.size a ≤ S16x50000.size a
  h_S16x50000 : 0 < S16x50000.numel
  shapeCasts_S16x50000_S16x50000 : S16x50000.ShapeCasts S16x50000
  inb_S1x50000_S1x50000_0_0 : ∀ a, (![0, 0] : Fin 2 → Nat) a + S1x50000.size a ≤ S1x50000.size a
  h_S1x50000 : 0 < S1x50000.numel
  shapeCasts_S1x50000_S1x50000 : S1x50000.ShapeCasts S1x50000
  broadcasts_S1x50000_S16x50000 : S1x50000.Broadcasts S16x50000
  gather_S16x50000_S1600000x1_S16x1600000_0_1_n_n_1_1_161_wf : GatherDims.WF S16x50000 S1600000x1 S16x1600000 [0] [1] [] [1] [] 1 ![16, 1]
  scatter_S16x50000_S1600000x1_S16x1600000_0_1_1_1_wf : ScatterDims.WF S16x50000 S1600000x1 S16x1600000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x80000.size a ≤ S16x1600000.size a
  hwx0_0 : ∀ i : grid0.Coords, EltTy.bits .f32 = 32 ∨ (Rect.block (s := S16x1600000) S16x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x80000.size a ≤ S16x1600000.size a
  hwx0_1 : ∀ i : grid0.Coords, EltTy.bits .f32 = 32 ∨ (Rect.block (s := S16x1600000) S16x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80000.size a ≤ S1x1600000.size a
  hwx0_2 : ∀ i : grid0.Coords, EltTy.bits .f32 = 32 ∨ (Rect.block (s := S1x1600000) S1x80000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x80000.size a ≤ S16x1600000.size a
  hwx0_3 : ∀ i : grid0.Coords, EltTy.bits .f32 = 32 ∨ (Rect.block (s := S16x1600000) S16x80000.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x50000.size a ≤ S16x50000.size a
  hwx1_0 : ∀ i : grid1.Coords, EltTy.bits .f32 = 32 ∨ (Rect.block (s := S16x50000) S16x50000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x50000.size a ≤ S16x50000.size a
  hwx1_1 : ∀ i : grid1.Coords, EltTy.bits .f32 = 32 ∨ (Rect.block (s := S16x50000) S16x50000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x50000.size a ≤ S16x50000.size a
  hwx1_2 : ∀ i : grid1.Coords, EltTy.bits .f32 = 32 ∨ (Rect.block (s := S16x50000) S16x50000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50000.size a ≤ S1x50000.size a
  hwx1_3 : ∀ i : grid1.Coords, EltTy.bits .f32 = 32 ∨ (Rect.block (s := S1x50000) S1x50000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x50000.size a ≤ S1x50000.size a
  hwx1_4 : ∀ i : grid1.Coords, EltTy.bits .f32 = 32 ∨ (Rect.block (s := S1x50000) S1x50000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x50000.size a ≤ S16x50000.size a
  hwx1_5 : ∀ i : grid1.Coords, EltTy.bits .f32 = 32 ∨ (Rect.block (s := S16x50000) S16x50000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x50000.size a ≤ S16x50000.size a
  hwx1_6 : ∀ i : grid1.Coords, EltTy.bits .f32 = 32 ∨ (Rect.block (s := S16x50000) S16x50000.size (cc1_transform_6 i) (hinb1_6 i)).WholeWords (EltTy.packing .f32)

variable [Facts₀]

def gather_S16x50000_S1600000x1_S16x1600000_0_1_n_n_1_1_161 : GatherDims S16x50000 S1600000x1 S16x1600000 where
  offsetDims := [0]
  collapsedSliceDims := [1]
  operandBatchingDims := []
  startIndicesBatchingDims := []
  startIndexMap := [1]
  indexVectorDim := 1
  sliceSizes := ![16, 1]
  wf := gather_S16x50000_S1600000x1_S16x1600000_0_1_n_n_1_1_161_wf
def scatter_S16x50000_S1600000x1_S16x1600000_0_1_1_1 : ScatterDims S16x50000 S1600000x1 S16x1600000 where
  updateWindowDims := [0]
  insertedWindowDims := [1]
  scatterDimsToOperandDims := [1]
  indexVectorDim := 1
  wf := scatter_S16x50000_S1600000x1_S16x1600000_0_1_1_1_wf

abbrev win0_0 : Pipeline.Window sig grid0 :=
  Pipeline.Window.ofSpec (Memref.whole main_v6) S16x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S16x80000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S16x50000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16x50000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S16x50000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x50000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x50000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S16x50000.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S16x50000.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x50000 : Shape := ⟨2, ![16, 50000]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S16x1600000 : Shape := ⟨2, ![16, 1600000]⟩
abbrev S1x1600000 : Shape := ⟨2, ![1, 1600000]⟩
abbrev S1x50000 : Shape := ⟨2, ![1, 50000]⟩

abbrev nBuf : Space → Nat
  | .hbm => 79
  | .vmem => 0
  | .smem => 0
  | _ => 0

abbrev bufTy : (tb : Table) → Fin (tcTables nBuf tb) → BufTy
  | .hbm, ⟨0, _⟩ => ⟨S16x50000, .f32⟩
  | .hbm, ⟨1, _⟩ => ⟨S16x50000, .f32⟩
  | .hbm, ⟨2, _⟩ => ⟨S16x50000, .f32⟩
  | .hbm, ⟨3, _⟩ => ⟨S1600000, .f32⟩
  | .hbm, ⟨4, _⟩ => ⟨S50000, .f32⟩
  | .hbm, ⟨5, _⟩ => ⟨S50000, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S16x1600000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S16x1600000, .f32⟩
  | .hbm, ⟨26, _⟩ => ⟨S16x1600000, .i1⟩
  | .hbm, ⟨27, _⟩ => ⟨S_, .f32⟩
  | .hbm, ⟨28, _⟩ => ⟨S_, .f32⟩
  | .hbm, ⟨29, _⟩ => ⟨S16x1600000, .f32⟩
  | .hbm, ⟨30, _⟩ => ⟨S16x1600000, .f32⟩
  | .hbm, ⟨31, _⟩ => ⟨S16x1600000, .f32⟩
  | .hbm, ⟨32, _⟩ => ⟨S1x1600000, .f32⟩
  | .hbm, ⟨33, _⟩ => ⟨S16x1600000, .f32⟩
  | .hbm, ⟨34, _⟩ => ⟨S16x1600000, .f32⟩
  | .hbm, ⟨35, _⟩ => ⟨S16x1600000, .f32⟩
  | .hbm, ⟨36, _⟩ => ⟨S16x1600000, .f32⟩
  | .hbm, ⟨37, _⟩ => ⟨S_, .f32⟩
  | .hbm, ⟨38, _⟩ => ⟨S16x50000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S16x50000, .f32⟩
  | .hbm, ⟨48, _⟩ => ⟨S16x50000, .f32⟩
  | .hbm, ⟨49, _⟩ => ⟨S16x50000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16x50000, .f32⟩
  | .hbm, ⟨54, _⟩ => ⟨S16x50000, .f32⟩
  | .hbm, ⟨55, _⟩ => ⟨S_, .f32⟩
  | .hbm, ⟨56, _⟩ => ⟨S16x50000, .f32⟩
  | .hbm, ⟨57, _⟩ => ⟨S16x50000, .f32⟩
  | .hbm, ⟨58, _⟩ => ⟨S1x50000, .f32⟩
  | .hbm, ⟨59, _⟩ => ⟨S16x50000, .f32⟩
  | .hbm, ⟨60, _⟩ => ⟨S16x50000, .i1⟩
  | .hbm, ⟨61, _⟩ => ⟨S16x50000, .i1⟩
  | .hbm, ⟨62, _⟩ => ⟨S16x50000, .f32⟩
  | .hbm, ⟨63, _⟩ => ⟨S16x50000, .f32⟩
  | .hbm, ⟨64, _⟩ => ⟨S_, .f32⟩
  | .hbm, ⟨65, _⟩ => ⟨S16x50000, .f32⟩
  | .hbm, ⟨66, _⟩ => ⟨S16x50000, .i1⟩
  | .hbm, ⟨67, _⟩ => ⟨S16x50000, .i1⟩
  | .hbm, ⟨68, _⟩ => ⟨S1x50000, .f32⟩
  | .hbm, ⟨69, _⟩ => ⟨S16x50000, .f32⟩
  | .hbm, ⟨70, _⟩ => ⟨S16x50000, .f32⟩
  | .hbm, ⟨71, _⟩ => ⟨S_, .f32⟩
  | .hbm, ⟨72, _⟩ => ⟨S16x50000, .f32⟩
  | .hbm, ⟨73, _⟩ => ⟨S16x50000, .f32⟩
  | .hbm, ⟨74, _⟩ => ⟨S1x50000, .f32⟩
  | .hbm, ⟨75, _⟩ => ⟨S16x50000, .f32⟩
  | .hbm, ⟨76, _⟩ => ⟨S16x50000, .f32⟩
  | .hbm, ⟨77, _⟩ => ⟨S16x50000, .f32⟩
  | .hbm, ⟨78, _⟩ => ⟨S16x50000, .f32⟩
  | _, _ => ⟨S16x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_cst_8 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call2_cst : Ref sig .tc := ⟨.hbm, 71, rfl⟩
abbrev main_call2_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S16x1600000 : S_.BroadcastsInDim S16x1600000 (![] : Fin 0 → Fin S16x1600000.rank)
  bcast_S1600000_S1x1600000_1 : S1600000.BroadcastsInDim S1x1600000 (![1] : Fin 1 → Fin S1x1600000.rank)
  bcast_S1x1600000_S16x1600000_0_1 : S1x1600000.BroadcastsInDim S16x1600000 (![0, 1] : Fin 2 → Fin S16x1600000.rank)
  bcast_S_S16x50000 : S_.BroadcastsInDim S16x50000 (![] : Fin 0 → Fin S16x50000.rank)
  bcast_S50000_S1x50000_1 : S50000.BroadcastsInDim S1x50000 (![1] : Fin 1 → Fin S1x50000.rank)
  bcast_S1x50000_S16x50000_0_1 : S1x50000.BroadcastsInDim S16x50000 (![0, 1] : Fin 2 → Fin S16x50000.rank)
  gather_S16x50000_S1600000x1_S16x1600000_0_1_n_n_1_1_161_wf : GatherDims.WF S16x50000 S1600000x1 S16x1600000 [0] [1] [] [1] [] 1 ![16, 1]
  scatter_S16x50000_S1600000x1_S16x1600000_0_1_1_1_wf : ScatterDims.WF S16x50000 S1600000x1 S16x1600000 [0] [1] [1] 1

variable [Facts₀]

def gather_S16x50000_S1600000x1_S16x1600000_0_1_n_n_1_1_161 : GatherDims S16x50000 S1600000x1 S16x1600000 where
  offsetDims := [0]
  collapsedSliceDims := [1]
  operandBatchingDims := []
  startIndicesBatchingDims := []
  startIndexMap := [1]
  indexVectorDim := 1
  sliceSizes := ![16, 1]
  wf := gather_S16x50000_S1600000x1_S16x1600000_0_1_n_n_1_1_161_wf
def scatter_S16x50000_S1600000x1_S16x1600000_0_1_1_1 : ScatterDims S16x50000 S1600000x1 S16x1600000 where
  updateWindowDims := [0]
  insertedWindowDims := [1]
  scatterDimsToOperandDims := [1]
  indexVectorDim := 1
  wf := scatter_S16x50000_S1600000x1_S16x1600000_0_1_1_1_wf

class Facts : Prop extends Facts₀ where

variable [Facts]
-- ==== Proof.EdgeRegion.lean ====
/-
  The first region (the per-edge stage), read as a value. The grid has 20 points; point `t` works on columns
  `80000·t … 80000·t + 79999` of the three operands (the gathered presynaptic outputs, the gathered postsynaptic
  states, and the one-row weights broadcast over the sixteen rows) and writes the same columns of the result:
  `contrib = (Oj · w) · (Oj ≥ En ? 1 : -1)`, element by element. The blocks tile the result array, so when the region
  is left it holds that function of the whole operand arrays. Stated for arbitrary contents `V` of the buffers when
  the region is entered.
-/
import proofs.«130877_j59751585022659_1_alg».proof.Proof.Gen.KernelIdeal.Frame
import Idealize.ShloMosaic.Lib.Pipeline.Value
import Idealize.ShloMosaic.Lib.ValueIdx

set_option maxRecDepth 16384

noncomputable section

namespace Cert.KernelIdeal.EdgeRegion

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- Both offsets of a whole-buffer access are zero. -/
theorem hz : (![0, 0] : Fin 2 → Nat) = fun _ => 0 := funext fun a => by fin_cases a <;> rfl

/-- The row index a column of a block reads the one-row operand at. -/
abbrev rowB (j : S16x80000.Idx) : S1x80000.Idx := fun a => match a with
  | ⟨0, _⟩ => ⟨0, Nat.one_pos⟩
  | ⟨1, _⟩ => ⟨(j 1).val, (j 1).isLt⟩

/-- The same for the whole arrays. -/
abbrev rowA (i : S16x1600000.Idx) : S1x1600000.Idx := fun a => match a with
  | ⟨0, _⟩ => ⟨0, Nat.one_pos⟩
  | ⟨1, _⟩ => ⟨(i 1).val, (i 1).isLt⟩

/-- One edge's contribution: the gathered output times the weight, signed by whether it reaches the gathered state. -/
def edgeS (oj en w : F .f32) : F .f32 :=
  FloatOps.mulf (FloatOps.mulf oj w)
    (Scalar.select (FloatOps.cmpf .oge oj en) (Scalar.ofBits .f32 0x3F800000#32) (Scalar.ofBits .f32 0xBF800000#32))

/-- The contributions of all edges in all sixteen rows, the weights read along the edge axis. -/
def edgeArr (oj en : FVec F S16x1600000 .f32) (w2 : FVec F S1x1600000 .f32) : FVec F S16x1600000 .f32 :=
  fun i => edgeS (oj i) (en i) (w2 (rowA i))

/-- The body's stored value at one element of a block. -/
theorem pay_apply (x0 x1 : Vec F S16x80000 .f32) (x2 : Vec F S1x80000 .f32) (j : S16x80000.Idx) :
    k0_pay1 x0 x1 x2 j = edgeS (x0 j) (x1 j) (x2 (rowB j)) := by
  unfold k0_pay1 edgeS
  simp only [shapeCast_self]
  show FloatOps.mulf (FloatOps.mulf (x0 j) (broadcastTo S16x80000 x2 broadcasts_S1x80000_S16x80000 j)) _ = _
  rw [broadcastTo_apply x2 broadcasts_S1x80000_S16x80000 j (rowB j) (fun a => match a with
    | ⟨0, _⟩ => by show 0 = if (1 : Nat) = 1 then 0 else _; rw [if_pos rfl]
    | ⟨1, _⟩ => by show (j 1).val = if (80000 : Nat) = 1 then 0 else _; rw [if_neg (by decide)]; rfl)]
  rfl

/-- The printed index maps over the grid: the operands' blocks move with the result's along the edge axis, and
    every block sits at row block zero. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) = 0 ∧ win0_3.index t (1 : Fin 2) ≤ 19 :=
  (by decide +kernel : ∀ t : Fin grid0.N, _)

/-- What point `t` writes back is block `t` of the contributions of the operand arrays as the region finds them. -/
theorem flushed3 (c : Dev nD) (t : Fin cfg0.N) :
    (dat0 V c).flushed 3 t = ((cfg0.win 3).blk t).view.read (Elt F) (edgeArr (V c main_v6) (V c main_v13) (V c main_v14)) := by
  show (cfg0.win 3).cut (grid0.coords t) ((dat0 V c).after 3 t) = _
  rw [after0_3]
  unfold out0_3
  rw [View.canon_unit_zero hz]
  simp only [View.ld_unit_zero (S := S16x80000) hz, View.ld_unit_zero (S := S1x80000) hz]
  funext j
  show k0_pay1 (iblk0 V c 0 t) (iblk0 V c 1 t) (iblk0 V c 2 t) j
    = edgeArr (V c main_v6) (V c main_v13) (V c main_v14) (((cfg0.win 3).blk t).view.emb j)
  refine (pay_apply _ _ _ j).trans ?_
  show edgeS (V c main_v6 (((cfg0.win 0).blk t).view.emb j)) (V c main_v13 (((cfg0.win 1).blk t).view.emb j))
      (V c main_v14 (((cfg0.win 2).blk t).view.emb (rowB j)))
    = edgeS (V c main_v6 (((cfg0.win 3).blk t).view.emb j)) (V c main_v13 (((cfg0.win 3).blk t).view.emb j))
      (V c main_v14 (rowA (((cfg0.win 3).blk t).view.emb j)))
  obtain ⟨e00, e01, e10, e11, e20, e21, e30, e31⟩ := idx_facts t
  have h0 : ((cfg0.win 0).blk t).view.emb j = ((cfg0.win 3).blk t).view.emb j := by
    funext a; apply Fin.ext
    match a with
    | ⟨0, _⟩ => show win0_0.index t (0 : Fin 2) * 16 + 1 * (j 0).val = win0_3.index t (0 : Fin 2) * 16 + 1 * (j 0).val; rw [e00]
    | ⟨1, _⟩ => show win0_0.index t (1 : Fin 2) * 80000 + 1 * (j 1).val = win0_3.index t (1 : Fin 2) * 80000 + 1 * (j 1).val; rw [e01]
  have h1 : ((cfg0.win 1).blk t).view.emb j = ((cfg0.win 3).blk t).view.emb j := by
    funext a; apply Fin.ext
    match a with
    | ⟨0, _⟩ => show win0_1.index t (0 : Fin 2) * 16 + 1 * (j 0).val = win0_3.index t (0 : Fin 2) * 16 + 1 * (j 0).val; rw [e10]
    | ⟨1, _⟩ => show win0_1.index t (1 : Fin 2) * 80000 + 1 * (j 1).val = win0_3.index t (1 : Fin 2) * 80000 + 1 * (j 1).val; rw [e11]
  have h2 : ((cfg0.win 2).blk t).view.emb (rowB j) = rowA (((cfg0.win 3).blk t).view.emb j) := by
    funext a; apply Fin.ext
    match a with
    | ⟨0, _⟩ => show win0_2.index t (0 : Fin 2) * 1 + 1 * 0 = 0; rw [e20]
    | ⟨1, _⟩ => show win0_2.index t (1 : Fin 2) * 80000 + 1 * (j 1).val = win0_3.index t (1 : Fin 2) * 80000 + 1 * (j 1).val; rw [e21]
  rw [h0, h1, h2]

/-- Every column block of the result is some point's. -/
theorem idx_onto : ∀ q : Fin 20, ∃ t : Fin cfg0.N, win0_3.index t = ![0, q.val] :=
  (by decide +kernel : ∀ q : Fin 20, ∃ t : Fin grid0.N, win0_3.index t = ![0, q.val])

/-- An index of the array lies in point `t`'s block iff each coordinate lies in the block's range on its axis. -/
theorem mem_blk3 (t : Fin cfg0.N) (i : S16x1600000.Idx) :
    i ∈ ((cfg0.win 3).blk t).view.set ↔ ∀ a : Fin 2, win0_3.index t a * S16x80000.size a ≤ (i a).val ∧ (i a).val < win0_3.index t a * S16x80000.size a + S16x80000.size a := by
  show i ∈ ((View.whole main_v15).slice (win0_3.rect t)).set ↔ _
  rw [View.set_slice_whole, Rect.mem_set_unit]
  exact Iff.rfl

/-- The blocks tile the result: column `e` lies in the block of point `e / 80000`. -/
theorem cover3 (i : S16x1600000.Idx) :
    ∃ t : Fin cfg0.N, (cfg0.win 3).flush t = true ∧ i ∈ ((cfg0.win 3).blk t).view.set := by
  have h0 : (i 0).val < 16 := (i 0).isLt
  have h1 : (i 1).val < 1600000 := (i 1).isLt
  obtain ⟨t, ht⟩ := idx_onto ⟨(i 1).val / 80000, by omega⟩
  have q0 : win0_3.index t (0 : Fin 2) = 0 := congrFun ht 0
  have q1 : win0_3.index t (1 : Fin 2) = (i 1).val / 80000 := congrFun ht 1
  refine ⟨t, flush0_3 t, ?_⟩
  rw [mem_blk3]
  intro a
  match a with
  | ⟨0, _⟩ => show win0_3.index t (0 : Fin 2) * 16 ≤ (i 0).val ∧ (i 0).val < win0_3.index t (0 : Fin 2) * 16 + 16; rw [q0]; omega
  | ⟨1, _⟩ => show win0_3.index t (1 : Fin 2) * 80000 ≤ (i 1).val ∧ (i 1).val < win0_3.index t (1 : Fin 2) * 80000 + 80000; rw [q1]; omega

/-- The result array when the region is left. -/
theorem final3 (c : Dev nD) :
    (dat0 V c).arrAt 3 cfg0.N = edgeArr (V c main_v6) (V c main_v13) (V c main_v14) :=
  (dat0 V c).arrAt_eq_of_cover 3 _ (fun t _ => flushed3 V c t) cover3

end Cert.KernelIdeal.EdgeRegion

end
-- ==== Proof.NodeRegion.lean ====
/-
  The second region (the per-node update), read as a value. Its grid is one point and every window's block is its whole
  array, so the region leaves in each result array exactly what the body computes of the whole input arrays:
  `S = clip(E + chem + gj, -10, 10)`, the new output `max(S - thr, 0)` and the new state
  `select(S > thr, new output, select(¬(S > thr) ∧ |S - E| ≤ ε, E - decay, S))`, the thresholds and decays one row
  broadcast over the sixteen rows. Stated for arbitrary contents `V` of the buffers when the region is entered.
-/
import proofs.«130877_j59751585022659_1_alg».proof.Proof.Gen.KernelIdeal.Frame
import Idealize.ShloMosaic.Lib.Pipeline.Value
import Idealize.ShloMosaic.Lib.ValueIdx

set_option maxRecDepth 16384

noncomputable section

namespace Cert.KernelIdeal.NodeRegion

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- Both offsets of a whole-buffer access are zero. -/
theorem hz : (![0, 0] : Fin 2 → Nat) = fun _ => 0 := funext fun a => by fin_cases a <;> rfl

/-- At the single grid point every window's block index is zero on both axes. -/
theorem idx_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-! ## Reading a window's one block gives back the whole array -/

theorem read_whole0 (t : Fin cfg1.N) (A : S16x50000.Idx → Elt F .f32) :
    ((cfg1.win 0).blk t).view.read (Elt F) A = A := by
  funext j
  show A (((cfg1.win 0).blk t).view.emb j) = A j
  congr 1
  funext a; apply Fin.ext
  have e0 : win1_0.index t (0 : Fin 2) = 0 := (idx_zero t).1
  have e1 : win1_0.index t (1 : Fin 2) = 0 := (idx_zero t).2.1
  match a with
  | ⟨0, _⟩ => show win1_0.index t (0 : Fin 2) * 16 + 1 * (j 0).val = (j 0).val; rw [e0]; omega
  | ⟨1, _⟩ => show win1_0.index t (1 : Fin 2) * 50000 + 1 * (j 1).val = (j 1).val; rw [e1]; omega

theorem read_whole1 (t : Fin cfg1.N) (A : S16x50000.Idx → Elt F .f32) :
    ((cfg1.win 1).blk t).view.read (Elt F) A = A := by
  funext j
  show A (((cfg1.win 1).blk t).view.emb j) = A j
  congr 1
  funext a; apply Fin.ext
  have e0 : win1_1.index t (0 : Fin 2) = 0 := (idx_zero t).2.2.1
  have e1 : win1_1.index t (1 : Fin 2) = 0 := (idx_zero t).2.2.2.1
  match a with
  | ⟨0, _⟩ => show win1_1.index t (0 : Fin 2) * 16 + 1 * (j 0).val = (j 0).val; rw [e0]; omega
  | ⟨1, _⟩ => show win1_1.index t (1 : Fin 2) * 50000 + 1 * (j 1).val = (j 1).val; rw [e1]; omega

theorem read_whole2 (t : Fin cfg1.N) (A : S16x50000.Idx → Elt F .f32) :
    ((cfg1.win 2).blk t).view.read (Elt F) A = A := by
  funext j
  show A (((cfg1.win 2).blk t).view.emb j) = A j
  congr 1
  funext a; apply Fin.ext
  have e0 : win1_2.index t (0 : Fin 2) = 0 := (idx_zero t).2.2.2.2.1
  have e1 : win1_2.index t (1 : Fin 2) = 0 := (idx_zero t).2.2.2.2.2.1
  match a with
  | ⟨0, _⟩ => show win1_2.index t (0 : Fin 2) * 16 + 1 * (j 0).val = (j 0).val; rw [e0]; omega
  | ⟨1, _⟩ => show win1_2.index t (1 : Fin 2) * 50000 + 1 * (j 1).val = (j 1).val; rw [e1]; omega

theorem read_whole5 (t : Fin cfg1.N) (A : S16x50000.Idx → Elt F .f32) :
    ((cfg1.win 5).blk t).view.read (Elt F) A = A := by
  funext j
  show A (((cfg1.win 5).blk t).view.emb j) = A j
  congr 1
  funext a; apply Fin.ext
  have e0 : win1_5.index t (0 : Fin 2) = 0 := (idx_zero t).2.2.2.2.2.2.2.2.2.2.1
  have e1 : win1_5.index t (1 : Fin 2) = 0 := (idx_zero t).2.2.2.2.2.2.2.2.2.2.2.1
  match a with
  | ⟨0, _⟩ => show win1_5.index t (0 : Fin 2) * 16 + 1 * (j 0).val = (j 0).val; rw [e0]; omega
  | ⟨1, _⟩ => show win1_5.index t (1 : Fin 2) * 50000 + 1 * (j 1).val = (j 1).val; rw [e1]; omega

theorem read_whole6 (t : Fin cfg1.N) (A : S16x50000.Idx → Elt F .f32) :
    ((cfg1.win 6).blk t).view.read (Elt F) A = A := by
  funext j
  show A (((cfg1.win 6).blk t).view.emb j) = A j
  congr 1
  funext a; apply Fin.ext
  have e0 : win1_6.index t (0 : Fin 2) = 0 := (idx_zero t).2.2.2.2.2.2.2.2.2.2.2.2.1
  have e1 : win1_6.index t (1 : Fin 2) = 0 := (idx_zero t).2.2.2.2.2.2.2.2.2.2.2.2.2
  match a with
  | ⟨0, _⟩ => show win1_6.index t (0 : Fin 2) * 16 + 1 * (j 0).val = (j 0).val; rw [e0]; omega
  | ⟨1, _⟩ => show win1_6.index t (1 : Fin 2) * 50000 + 1 * (j 1).val = (j 1).val; rw [e1]; omega

theorem read_whole3 (t : Fin cfg1.N) (A : S1x50000.Idx → Elt F .f32) :
    ((cfg1.win 3).blk t).view.read (Elt F) A = A := by
  funext j
  show A (((cfg1.win 3).blk t).view.emb j) = A j
  congr 1
  funext a; apply Fin.ext
  have e0 : win1_3.index t (0 : Fin 2) = 0 := (idx_zero t).2.2.2.2.2.2.1
  have e1 : win1_3.index t (1 : Fin 2) = 0 := (idx_zero t).2.2.2.2.2.2.2.1
  match a with
  | ⟨0, _⟩ => show win1_3.index t (0 : Fin 2) * 1 + 1 * (j 0).val = (j 0).val; rw [e0]; omega
  | ⟨1, _⟩ => show win1_3.index t (1 : Fin 2) * 50000 + 1 * (j 1).val = (j 1).val; rw [e1]; omega

theorem read_whole4 (t : Fin cfg1.N) (A : S1x50000.Idx → Elt F .f32) :
    ((cfg1.win 4).blk t).view.read (Elt F) A = A := by
  funext j
  show A (((cfg1.win 4).blk t).view.emb j) = A j
  congr 1
  funext a; apply Fin.ext
  have e0 : win1_4.index t (0 : Fin 2) = 0 := (idx_zero t).2.2.2.2.2.2.2.2.1
  have e1 : win1_4.index t (1 : Fin 2) = 0 := (idx_zero t).2.2.2.2.2.2.2.2.2.1
  match a with
  | ⟨0, _⟩ => show win1_4.index t (0 : Fin 2) * 1 + 1 * (j 0).val = (j 0).val; rw [e0]; omega
  | ⟨1, _⟩ => show win1_4.index t (1 : Fin 2) * 50000 + 1 * (j 1).val = (j 1).val; rw [e1]; omega

theorem iblk_0 (c : Dev nD) (t : Fin cfg1.N) : iblk1 V c 0 t = V c main_arg1 := read_whole0 t _
theorem iblk_1 (c : Dev nD) (t : Fin cfg1.N) : iblk1 V c 1 t = V c main_arg0 := read_whole1 t _
theorem iblk_2 (c : Dev nD) (t : Fin cfg1.N) : iblk1 V c 2 t = V c main_v23 := read_whole2 t _
theorem iblk_3 (c : Dev nD) (t : Fin cfg1.N) : iblk1 V c 3 t = V c main_v24 := read_whole3 t _
theorem iblk_4 (c : Dev nD) (t : Fin cfg1.N) : iblk1 V c 4 t = V c main_v25 := read_whole4 t _

/-! ## The two result arrays -/

/-- What the single grid point writes back into result window 5: the body's value of the whole input arrays. -/
theorem flushed5 (c : Dev nD) (t : Fin cfg1.N) :
    (dat1 V c).flushed 5 t = ((cfg1.win 5).blk t).view.read (Elt F) (k1_pay3 (V c main_arg1) (V c main_arg0) (V c main_v23) (V c main_v24)) := by
  show (cfg1.win 5).cut (grid1.coords t) ((dat1 V c).after 5 t) = _
  rw [after1_5]
  unfold out1_5
  rw [View.canon_unit_zero hz]
  simp only [View.ld_unit_zero (S := S16x50000) hz, View.ld_unit_zero (S := S1x50000) hz]
  rw [iblk_0, iblk_1, iblk_2, iblk_3]
  refine Eq.trans ?_ (read_whole5 t _).symm
  rfl

/-- An index of the array lies in the point's block iff each coordinate lies in the block's range on its axis. -/
theorem mem_blk5 (t : Fin cfg1.N) (i : S16x50000.Idx) :
    i ∈ ((cfg1.win 5).blk t).view.set ↔ ∀ a : Fin 2, win1_5.index t a * S16x50000.size a ≤ (i a).val ∧ (i a).val < win1_5.index t a * S16x50000.size a + S16x50000.size a := by
  show i ∈ ((View.whole main_v26_0).slice (win1_5.rect t)).set ↔ _
  rw [View.set_slice_whole, Rect.mem_set_unit]
  exact Iff.rfl

/-- The one block is the whole array. -/
theorem cover5 (i : S16x50000.Idx) :
    ∃ t : Fin cfg1.N, (cfg1.win 5).flush t = true ∧ i ∈ ((cfg1.win 5).blk t).view.set := by
  refine ⟨t1_0, flush1_5 t1_0, ?_⟩
  rw [mem_blk5]
  have e0 : win1_5.index t1_0 (0 : Fin 2) = 0 := (idx_zero t1_0).2.2.2.2.2.2.2.2.2.2.1
  have e1 : win1_5.index t1_0 (1 : Fin 2) = 0 := (idx_zero t1_0).2.2.2.2.2.2.2.2.2.2.2.1
  have h0 : (i 0).val < 16 := (i 0).isLt
  have h1 : (i 1).val < 50000 := (i 1).isLt
  intro a
  match a with
  | ⟨0, _⟩ => show win1_5.index t1_0 (0 : Fin 2) * 16 ≤ (i 0).val ∧ (i 0).val < win1_5.index t1_0 (0 : Fin 2) * 16 + 16; rw [e0]; omega
  | ⟨1, _⟩ => show win1_5.index t1_0 (1 : Fin 2) * 50000 ≤ (i 1).val ∧ (i 1).val < win1_5.index t1_0 (1 : Fin 2) * 50000 + 50000; rw [e1]; omega

/-- Result window 5's array when the region is left. -/
theorem final5 (c : Dev nD) :
    (dat1 V c).arrAt 5 cfg1.N = k1_pay3 (V c main_arg1) (V c main_arg0) (V c main_v23) (V c main_v24) :=
  (dat1 V c).arrAt_eq_of_cover 5 _ (fun t _ => flushed5 V c t) cover5

/-- What the single grid point writes back into result window 6: the body's value of the whole input arrays. -/
theorem flushed6 (c : Dev nD) (t : Fin cfg1.N) :
    (dat1 V c).flushed 6 t = ((cfg1.win 6).blk t).view.read (Elt F) (k1_pay4 (V c main_arg1) (V c main_arg0) (V c main_v23) (V c main_v24) (V c main_v25)) := by
  show (cfg1.win 6).cut (grid1.coords t) ((dat1 V c).after 6 t) = _
  rw [after1_6]
  unfold out1_6
  rw [View.canon_unit_zero hz]
  simp only [View.ld_unit_zero (S := S16x50000) hz, View.ld_unit_zero (S := S1x50000) hz]
  rw [iblk_0, iblk_1, iblk_2, iblk_3, iblk_4]
  refine Eq.trans ?_ (read_whole6 t _).symm
  rfl

/-- An index of the array lies in the point's block iff each coordinate lies in the block's range on its axis. -/
theorem mem_blk6 (t : Fin cfg1.N) (i : S16x50000.Idx) :
    i ∈ ((cfg1.win 6).blk t).view.set ↔ ∀ a : Fin 2, win1_6.index t a * S16x50000.size a ≤ (i a).val ∧ (i a).val < win1_6.index t a * S16x50000.size a + S16x50000.size a := by
  show i ∈ ((View.whole main_v26_1).slice (win1_6.rect t)).set ↔ _
  rw [View.set_slice_whole, Rect.mem_set_unit]
  exact Iff.rfl

/-- The one block is the whole array. -/
theorem cover6 (i : S16x50000.Idx) :
    ∃ t : Fin cfg1.N, (cfg1.win 6).flush t = true ∧ i ∈ ((cfg1.win 6).blk t).view.set := by
  refine ⟨t1_0, flush1_6 t1_0, ?_⟩
  rw [mem_blk6]
  have e0 : win1_6.index t1_0 (0 : Fin 2) = 0 := (idx_zero t1_0).2.2.2.2.2.2.2.2.2.2.2.2.1
  have e1 : win1_6.index t1_0 (1 : Fin 2) = 0 := (idx_zero t1_0).2.2.2.2.2.2.2.2.2.2.2.2.2
  have h0 : (i 0).val < 16 := (i 0).isLt
  have h1 : (i 1).val < 50000 := (i 1).isLt
  intro a
  match a with
  | ⟨0, _⟩ => show win1_6.index t1_0 (0 : Fin 2) * 16 ≤ (i 0).val ∧ (i 0).val < win1_6.index t1_0 (0 : Fin 2) * 16 + 16; rw [e0]; omega
  | ⟨1, _⟩ => show win1_6.index t1_0 (1 : Fin 2) * 50000 ≤ (i 1).val ∧ (i 1).val < win1_6.index t1_0 (1 : Fin 2) * 50000 + 50000; rw [e1]; omega

/-- Result window 6's array when the region is left. -/
theorem final6 (c : Dev nD) :
    (dat1 V c).arrAt 6 cfg1.N = k1_pay4 (V c main_arg1) (V c main_arg0) (V c main_v23) (V c main_v24) (V c main_v25) :=
  (dat1 V c).arrAt_eq_of_cover 6 _ (fun t _ => flushed6 V c t) cover6

end Cert.KernelIdeal.NodeRegion

end
-- ==== Proof.Glue.lean ====
/-
  The host stretches between the regions, read back, and the two result arrays as functions of the launch contents.
  Before the first region @main wraps negative indices (`x < 0 ? x + 50000 : x`), gathers the presynaptic outputs along
  `src` and the states along `dst`, and reshapes the weights to one row; between the regions it scatter-adds the
  first region's contributions into zeros along `dst` and reshapes thresholds and decays to one row. Chaining the
  boundary contents through both regions' values gives each result array as the second region's body applied to
  `E`, `chem`, the scatter-added currents and the two rows.
-/
import proofs.«130877_j59751585022659_1_alg».proof.Proof.Gen.KernelIdeal.Frame
import proofs.«130877_j59751585022659_1_alg».proof.Proof.EdgeRegion
import proofs.«130877_j59751585022659_1_alg».proof.Proof.NodeRegion
import Idealize.ShloMosaic.Lib.StableHlo.Run

set_option maxRecDepth 16384

noncomputable section

namespace Cert.KernelIdeal.Glue

open Cert.KernelIdeal Cert.KernelIdeal.Gen Cert.KernelIdeal.EdgeRegion
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- An index vector with its negative entries wrapped by the axis length, as a column. -/
def wrapIdx (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- The gap-junction currents: every edge's contribution, scatter-added into zeros along the wrapped `dst`. -/
def gjSum (x1 x2 : FVec F S16x50000 .f32) (x3 : FVec F S1600000 .f32) (x6 x7 : IVec S1600000 32) : FVec F S16x50000 .f32 :=
  Host.scatterAdd scatter_S16x50000_S1600000x1_S16x1600000_0_1_1_1
    (broadcastInDim S16x50000 ![] bcast_S_S16x50000 (constant S_ .f32 0x00000000#32))
    (wrapIdx x7)
    (edgeArr (Host.gather gather_S16x50000_S1600000x1_S16x1600000_0_1_n_n_1_1_161 x2 (wrapIdx x6))
      (Host.gather gather_S16x50000_S1600000x1_S16x1600000_0_1_n_n_1_1_161 x1 (wrapIdx x7))
      (shapeCast S1x1600000 x3 shapeCasts_S1600000_S1x1600000))

/-! ## The launch contents of an argument, read at the boundaries -/

theorem w2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem w2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

theorem w2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem w2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem w2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## The first region's operands and result -/

theorem v1_v6 (c : Dev nD) : V1 m ρ c main_v6
    = Host.gather gather_S16x50000_S1600000x1_S16x1600000_0_1_n_n_1_1_161 (m ((c : Thread nD τ).loc main_arg2)) (wrapIdx (m ((c : Thread nD τ).loc main_arg6))) := by
  show StableHlo.after hostOps0 (W0 m ρ c) (Proc.devRef .tc main_v6) = _
  after_results; rfl

theorem v1_v13 (c : Dev nD) : V1 m ρ c main_v13
    = Host.gather gather_S16x50000_S1600000x1_S16x1600000_0_1_n_n_1_1_161 (m ((c : Thread nD τ).loc main_arg1)) (wrapIdx (m ((c : Thread nD τ).loc main_arg7))) := by
  show StableHlo.after hostOps0 (W0 m ρ c) (Proc.devRef .tc main_v13) = _
  after_results; rfl

theorem v1_v14 (c : Dev nD) : V1 m ρ c main_v14
    = shapeCast S1x1600000 (m ((c : Thread nD τ).loc main_arg3)) shapeCasts_S1600000_S1x1600000 := by
  show StableHlo.after hostOps0 (W0 m ρ c) (Proc.devRef .tc main_v14) = _
  after_results; rfl

/-- The contributions the first region leaves, of the launch contents. -/
theorem w2_v15 (c : Dev nD) : W2 m ρ c (Proc.devRef .tc main_v15)
    = edgeArr (Host.gather gather_S16x50000_S1600000x1_S16x1600000_0_1_n_n_1_1_161 (m ((c : Thread nD τ).loc main_arg2)) (wrapIdx (m ((c : Thread nD τ).loc main_arg6))))
        (Host.gather gather_S16x50000_S1600000x1_S16x1600000_0_1_n_n_1_1_161 (m ((c : Thread nD τ).loc main_arg1)) (wrapIdx (m ((c : Thread nD τ).loc main_arg7))))
        (shapeCast S1x1600000 (m ((c : Thread nD τ).loc main_arg3)) shapeCasts_S1600000_S1x1600000) := by
  refine (W2_arr m ρ c 3).trans ?_
  rw [EdgeRegion.final3 (V1 m ρ) c, v1_v6, v1_v13, v1_v14]

/-! ## The second region's operands -/

theorem v3_v23 (c : Dev nD) : V3 m ρ c main_v23
    = gjSum (m ((c : Thread nD τ).loc main_arg1)) (m ((c : Thread nD τ).loc main_arg2)) (m ((c : Thread nD τ).loc main_arg3))
        (m ((c : Thread nD τ).loc main_arg6)) (m ((c : Thread nD τ).loc main_arg7)) := by
  show StableHlo.after hostOps1 (W2 m ρ c) (Proc.devRef .tc main_v23) = _
  after_results
  rw [w2_arg7, w2_v15]
  rfl

theorem v3_v24 (c : Dev nD) : V3 m ρ c main_v24
    = shapeCast S1x50000 (m ((c : Thread nD τ).loc main_arg4)) shapeCasts_S50000_S1x50000 := by
  show StableHlo.after hostOps1 (W2 m ρ c) (Proc.devRef .tc main_v24) = _
  after_results
  rw [w2_arg4]
  rfl

theorem v3_v25 (c : Dev nD) : V3 m ρ c main_v25
    = shapeCast S1x50000 (m ((c : Thread nD τ).loc main_arg5)) shapeCasts_S50000_S1x50000 := by
  show StableHlo.after hostOps1 (W2 m ρ c) (Proc.devRef .tc main_v25) = _
  after_results
  rw [w2_arg5]
  rfl

theorem v3_arg0 (c : Dev nD) : V3 m ρ c main_arg0 = m ((c : Thread nD τ).loc main_arg0) := by
  show StableHlo.after hostOps1 (W2 m ρ c) (Proc.devRef .tc main_arg0) = _
  after_results
  exact w2_arg0 m ρ c

theorem v3_arg1 (c : Dev nD) : V3 m ρ c main_arg1 = m ((c : Thread nD τ).loc main_arg1) := by
  show StableHlo.after hostOps1 (W2 m ρ c) (Proc.devRef .tc main_arg1) = _
  after_results
  exact w2_arg1 m ρ c

/-! ## The two result arrays -/

/-- The new outputs: the second region's first stored value of `E`, `chem`, the currents and the threshold row. -/
theorem result0 (c : Dev nD) : W4 m ρ c (Proc.devRef .tc main_v26_0)
    = k1_pay3 (m ((c : Thread nD τ).loc main_arg1)) (m ((c : Thread nD τ).loc main_arg0))
        (gjSum (m ((c : Thread nD τ).loc main_arg1)) (m ((c : Thread nD τ).loc main_arg2)) (m ((c : Thread nD τ).loc main_arg3))
          (m ((c : Thread nD τ).loc main_arg6)) (m ((c : Thread nD τ).loc main_arg7)))
        (shapeCast S1x50000 (m ((c : Thread nD τ).loc main_arg4)) shapeCasts_S50000_S1x50000) := by
  refine (W4_arr m ρ c 5).trans ?_
  rw [NodeRegion.final5 (V3 m ρ) c, v3_arg1, v3_arg0, v3_v23, v3_v24]

/-- The new states: the second stored value, which also reads the decay row. -/
theorem result1 (c : Dev nD) : W4 m ρ c (Proc.devRef .tc main_v26_1)
    = k1_pay4 (m ((c : Thread nD τ).loc main_arg1)) (m ((c : Thread nD τ).loc main_arg0))
        (gjSum (m ((c : Thread nD τ).loc main_arg1)) (m ((c : Thread nD τ).loc main_arg2)) (m ((c : Thread nD τ).loc main_arg3))
          (m ((c : Thread nD τ).loc main_arg6)) (m ((c : Thread nD τ).loc main_arg7)))
        (shapeCast S1x50000 (m ((c : Thread nD τ).loc main_arg4)) shapeCasts_S50000_S1x50000)
        (shapeCast S1x50000 (m ((c : Thread nD τ).loc main_arg5)) shapeCasts_S50000_S1x50000) := by
  refine (W4_arr m ρ c 6).trans ?_
  rw [NodeRegion.final6 (V3 m ρ) c, v3_arg1, v3_arg0, v3_v23, v3_v24, v3_v25]

end Cert.KernelIdeal.Glue

end
-- ==== Proof.Bridge.lean ====
/-
  The kernel's two result arrays, as functions of the launch contents, are the reference's two results, at the ideal
  values. Both programs wrap the indices, gather and scatter-add with the same host operations, so those are carried as
  they stand; what is compared element by element is the arithmetic between them. Per edge both compute
  `(Oj · w) · (Oj ≥ En ? 1 : -1)`: the kernel reads the weight through a one-row reshape broadcast down the rows, the
  reference through two broadcasts, the same element. Per node both compute `S = min(10, max(-10, (E + chem) + gj))`,
  `max(S - thr, 0)` and the nested selection for the new state: the kernel complements the comparison by an
  exclusive-or with `true` where the reference negates the bit, and the reference's absolute value is the kernel's at
  the ideal values; thresholds and decays are again one row read at the element's column.
-/
import proofs.«130877_j59751585022659_1_alg».proof.Proof.Glue
import proofs.«130877_j59751585022659_1_alg».proof.Proof.Gen.ReferenceIdeal.Read
import Idealize.ShloMosaic.Lib.KernelVsHost
import Idealize.ShloMosaic.PureOps.Ideal

set_option maxRecDepth 16384

noncomputable section

namespace Cert.Bridge

open Cert.KernelIdeal Cert.KernelIdeal.Gen Cert.KernelIdeal.EdgeRegion Cert.KernelIdeal.Glue
open Cert.ReferenceIdeal.Read
open Idealize.ShloMosaic Idealize.ShloMosaic.TcCoe Idealize.SL.Sem

/-- The column an element of a sixteen-row array reads a one-row operand at. -/
abbrev rowN (i : S16x50000.Idx) : S1x50000.Idx := fun a => match a with
  | ⟨0, _⟩ => ⟨0, Nat.one_pos⟩
  | ⟨1, _⟩ => ⟨(i 1).val, (i 1).isLt⟩

/-! ## The shared host operations -/

theorem wrap_v5 (x : IVec S1600000 32) : val_main_v5 (F := Ideal) x = wrapIdx x := rfl
theorem wrap_v12 (x : IVec S1600000 32) : val_main_v12 (F := Ideal) x = wrapIdx x := rfl
theorem wrap_v27 (x : IVec S1600000 32) : val_main_v27 (F := Ideal) x = wrapIdx x := rfl

theorem gather_v6 (x2 : FVec Ideal S16x50000 .f32) (x6 : IVec S1600000 32) :
    val_main_v6 (F := Ideal) x2 x6 = Host.gather gather_S16x50000_S1600000x1_S16x1600000_0_1_n_n_1_1_161 x2 (wrapIdx x6) := rfl
theorem gather_v13 (x1 : FVec Ideal S16x50000 .f32) (x7 : IVec S1600000 32) :
    val_main_v13 (F := Ideal) x1 x7 = Host.gather gather_S16x50000_S1600000x1_S16x1600000_0_1_n_n_1_1_161 x1 (wrapIdx x7) := rfl

/-! ## The per-edge stage -/

/-- The one-row reshape of a vector, read at an element's column, is the vector's entry there. -/
theorem weight_row (x3 : FVec Ideal S1600000 .f32) (i : S16x1600000.Idx) :
    shapeCast S1x1600000 x3 shapeCasts_S1600000_S1x1600000 (rowA i) = x3 (idx_main_v16 (idx_main_v17 i)) :=
  shapeCast_apply x3 shapeCasts_S1600000_S1x1600000 (rowA i) (idx_main_v16 (idx_main_v17 i)) (by
    rw [Shape.rowMajor_val_one, Shape.rowMajor_val_two]
    show (i 1).val = 0 * 1600000 + (i 1).val
    omega)

theorem edge_eq (x1 x2 : FVec Ideal S16x50000 .f32) (x3 : FVec Ideal S1600000 .f32) (x6 x7 : IVec S1600000 32) :
    val_main_v20 (F := Ideal) x1 x2 x3 x6 x7
      = edgeArr (Host.gather gather_S16x50000_S1600000x1_S16x1600000_0_1_n_n_1_1_161 x2 (wrapIdx x6))
          (Host.gather gather_S16x50000_S1600000x1_S16x1600000_0_1_n_n_1_1_161 x1 (wrapIdx x7))
          (shapeCast S1x1600000 x3 shapeCasts_S1600000_S1x1600000) := by
  funext i
  rw [val_main_v20_apply, val_main_v18_apply, val_main_v19_apply, val_main_v15_apply, val_main_v14_apply,
    val_main_v17_apply, val_main_v16_apply, val_main_call0_v0_apply, val_main_call0_v1_apply, val_main_cst_apply,
    val_main_cst_3_apply, gather_v6, gather_v13]
  show _ = edgeS _ _ (shapeCast S1x1600000 x3 shapeCasts_S1600000_S1x1600000 (rowA i))
  rw [weight_row]
  rfl

/-- The currents: the same scatter-add of the same contributions. -/
theorem gj_eq (x1 x2 : FVec Ideal S16x50000 .f32) (x3 : FVec Ideal S1600000 .f32) (x6 x7 : IVec S1600000 32) :
    val_main_v28 (F := Ideal) x1 x2 x3 x6 x7 = gjSum x1 x2 x3 x6 x7 := by
  unfold val_main_v28 gjSum
  rw [edge_eq]
  rfl

/-! ## The per-node stage -/

/-- A one-row reshape of a vector broadcast down the sixteen rows, read at an element, is the vector's entry at the
    element's column. -/
theorem row_read (x : FVec Ideal S50000 .f32) (i : S16x50000.Idx) :
    broadcastTo S16x50000 (shapeCast S1x50000 x shapeCasts_S50000_S1x50000) broadcasts_S1x50000_S16x50000 i
      = x (idx_main_v41 (idx_main_v42 i)) := by
  rw [broadcastTo_apply _ broadcasts_S1x50000_S16x50000 i (rowN i) (fun a => match a with
    | ⟨0, _⟩ => by show 0 = if (1 : Nat) = 1 then 0 else _; rw [if_pos rfl]
    | ⟨1, _⟩ => by show (i 1).val = if (50000 : Nat) = 1 then 0 else _; rw [if_neg (by decide)]; rfl)]
  exact shapeCast_apply x shapeCasts_S50000_S1x50000 (rowN i) _ (by
    rw [Shape.rowMajor_val_one, Shape.rowMajor_val_two]
    show (i 1).val = 0 * 50000 + (i 1).val
    omega)

/-- The clipped sum `S`. -/
theorem clip_eq (x0 x1 x2 : FVec Ideal S16x50000 .f32) (x3 : FVec Ideal S1600000 .f32) (x6 x7 : IVec S1600000 32) (i : S16x50000.Idx) :
    k1_pay2 (F := Ideal) x1 x0 (val_main_v28 (F := Ideal) x1 x2 x3 x6 x7) i = val_main_v31 (F := Ideal) x0 x1 x2 x3 x6 x7 i := by
  rw [val_main_v31_apply, val_main_call1_v4_apply, val_main_call1_v3_apply, val_main_cst_8_apply, val_main_call1_v2_apply,
    val_main_call1_v1_apply, val_main_call1_v0_apply, val_main_cst_7_apply, val_main_v30_apply, val_main_v29_apply]
  unfold k1_pay2
  simp only [shapeCast_self]
  rfl

/-- The new outputs. -/
theorem out_eq (x0 x1 x2 : FVec Ideal S16x50000 .f32) (x3 : FVec Ideal S1600000 .f32) (x4 : FVec Ideal S50000 .f32) (x6 x7 : IVec S1600000 32) :
    k1_pay3 (F := Ideal) x1 x0 (gjSum x1 x2 x3 x6 x7) (shapeCast S1x50000 x4 shapeCasts_S50000_S1x50000)
      = val_main_v44 (F := Ideal) x0 x1 x2 x3 x4 x6 x7 := by
  rw [← gj_eq]
  funext i
  rw [val_main_v44_apply, val_main_v43_apply, val_main_v42_apply, val_main_v41_apply, val_main_call2_v0_apply,
    val_main_call2_cst_apply, ← clip_eq]
  unfold k1_pay3 k1_pay1
  simp only [shapeCast_self]
  show FloatOps.maximumf (FloatOps.subf (k1_pay2 (F := Ideal) x1 x0 (val_main_v28 (F := Ideal) x1 x2 x3 x6 x7) i)
      (broadcastTo S16x50000 (shapeCast S1x50000 x4 shapeCasts_S50000_S1x50000) broadcasts_S1x50000_S16x50000 i)) _ = _
  rw [row_read]
  rfl

/-- The new states. -/
theorem state_eq (x0 x1 x2 : FVec Ideal S16x50000 .f32) (x3 : FVec Ideal S1600000 .f32) (x4 x5 : FVec Ideal S50000 .f32) (x6 x7 : IVec S1600000 32) :
    k1_pay4 (F := Ideal) x1 x0 (gjSum x1 x2 x3 x6 x7) (shapeCast S1x50000 x4 shapeCasts_S50000_S1x50000)
        (shapeCast S1x50000 x5 shapeCasts_S50000_S1x50000)
      = val_main_v49 (F := Ideal) x0 x1 x2 x3 x4 x5 x6 x7 := by
  funext i
  rw [val_main_v49_apply, ← out_eq, val_main_v48_apply, val_main_v47_apply, val_main_v46_apply, val_main_v45_apply,
    val_main_v40_apply, val_main_v39_apply, val_main_v38_apply, val_main_cst_9_apply, val_main_v37_apply,
    val_main_v36_apply, val_main_v35_apply, val_main_v34_apply, val_main_v33_apply, val_main_v32_apply, ← clip_eq, ← gj_eq]
  unfold k1_pay4 k1_pay1
  simp only [shapeCast_self]
  show Scalar.select
      (FloatOps.cmpf .ogt (k1_pay2 (F := Ideal) x1 x0 (val_main_v28 (F := Ideal) x1 x2 x3 x6 x7) i)
        (broadcastTo S16x50000 (shapeCast S1x50000 x4 shapeCasts_S50000_S1x50000) broadcasts_S1x50000_S16x50000 i))
      _ (Scalar.select
        (IntOp.andi (IntOp.xori (FloatOps.cmpf .ogt (k1_pay2 (F := Ideal) x1 x0 (val_main_v28 (F := Ideal) x1 x2 x3 x6 x7) i)
            (broadcastTo S16x50000 (shapeCast S1x50000 x4 shapeCasts_S50000_S1x50000) broadcasts_S1x50000_S16x50000 i)) 1#1) _)
        (FloatOps.subf (x1 i) (broadcastTo S16x50000 (shapeCast S1x50000 x5 shapeCasts_S50000_S1x50000) broadcasts_S1x50000_S16x50000 i))
        _) = _
  rw [row_read, row_read, xori_one_eq_not]
  rfl

end Cert.Bridge

end
-- ==== Proof.lean ====
/-
  A spiking-network update: gap-junction currents gathered along the edges, signed and weighted per edge,
  scatter-added per node, then the per-node dynamics. The kernel computes the per-edge products
  `(Oj · w) · (Oj ≥ En ? 1 : -1)` tile by tile along the edge axis and the per-node update
  (`S = clip(E + chem + gj, -10, 10)`, the new output `max(S - thr, 0)`, the new state by two selections) in one
  block, with the gathers and the scatter-add on the host between them; the reference does all of it on the host.
  Element by element the two are the same expression of the same gathered and scatter-added arrays, so no law of
  the extended reals is needed and the finiteness of the inputs is never used.

  The frames of the two kernel programs are the generated ones; the reference's frame is its run with the results
  dropped. For the value, the kernel program's run is read with its two result arrays named (ResultRun), each
  region's result is read as one function of the arrays it finds (EdgeRegion, NodeRegion), the host stretches are
  read back (Glue), and the resulting functions of the launch contents are identified with the reference's stages
  (Bridge).
-/
import proofs.«130877_j59751585022659_1_alg».proof.Defs
import proofs.«130877_j59751585022659_1_alg».proof.Proof.Gen.Kernel
import proofs.«130877_j59751585022659_1_alg».proof.Proof.Gen.Kernel.Skeleton
import proofs.«130877_j59751585022659_1_alg».proof.Proof.Gen.Kernel.Launch
import proofs.«130877_j59751585022659_1_alg».proof.Proof.Gen.Kernel.Points
import proofs.«130877_j59751585022659_1_alg».proof.Proof.Gen.Kernel.Frame
import proofs.«130877_j59751585022659_1_alg».proof.Proof.Gen.KernelIdeal
import proofs.«130877_j59751585022659_1_alg».proof.Proof.Gen.KernelIdeal.Skeleton
import proofs.«130877_j59751585022659_1_alg».proof.Proof.Gen.KernelIdeal.Launch
import proofs.«130877_j59751585022659_1_alg».proof.Proof.Gen.KernelIdeal.Points
import proofs.«130877_j59751585022659_1_alg».proof.Proof.Gen.KernelIdeal.Frame
import proofs.«130877_j59751585022659_1_alg».proof.Proof.Gen.ReferenceIdeal
import proofs.«130877_j59751585022659_1_alg».proof.Proof.Gen.Pre_finite_inputs
import proofs.«130877_j59751585022659_1_alg».proof.Proof.Gen.ReferenceIdeal.Run
import proofs.«130877_j59751585022659_1_alg».proof.Proof.Gen.ReferenceIdeal.Read
import proofs.«130877_j59751585022659_1_alg».proof.Proof.ResultRun
import proofs.«130877_j59751585022659_1_alg».proof.Proof.Glue
import proofs.«130877_j59751585022659_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the new outputs and the new states at the
    reference's two stages of the kernel program's launch contents: the kernel program by its run, the two regions'
    values and the bridge; the reference by its run, read at arguments that agree. -/
theorem algebraic : Cert.algebraic_KernelIdeal_ReferenceIdeal := by
  intro m ρ m' ρ' _ hagree
  refine ⟨fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c).1.trans ((Cert.KernelIdeal.Glue.result0 m ρ c).trans (Cert.Bridge.out_eq _ _ _ _ _ _ _)),
       (h c).2.1.trans ((Cert.KernelIdeal.Glue.result1 m ρ c).trans (Cert.Bridge.state_eq _ _ _ _ _ _ _ _)),
       (h c).2.2⟩) (Cert.KernelIdeal.ResultRun.run (F := Ideal) m ρ)
  · refine (θ_run Cert.ReferenceIdeal.defs _ _).mono (fun r h c => ?_) (Cert.ReferenceIdeal.Value.run (F := Ideal) m' ρ')
    obtain ⟨h0, h1, h2, h3, h4, h5, h6, h7⟩ := hagree c
    refine ⟨(h c).1.trans ?_, (h c).2.1.trans ?_, (h c).2.2⟩
    · refine (Cert.ReferenceIdeal.Read.val_main_v44_eq _ _ _ _ _ _ _).trans ?_
      rw [h0, h1, h2, h3, h4, h6, h7]
    · refine (Cert.ReferenceIdeal.Read.val_main_v49_eq m' c).trans ?_
      rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
